-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S12500x512 : Shape := ⟨2, ![12500, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S12500x512 : S_.BroadcastsInDim S12500x512 (![] : Fin 0 → Fin S12500x512.rank)
  reducesTo_S12500x512_S_d0_1 : S12500x512.ReducesTo [0, 1] S_

variable [Facts]

def fn {F : FTy → Type} [FloatOps F] (main_arg0 : FVec F S4096x512 .f32) (main_arg1 : FVec F S12500x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S12500x512 .f32 := Host.absf main_arg1
  let main_cst_0 : FVec F S_ .f32 := constant S_ .f32 0x7F800000#32
  let main_v5 : FVec F S12500x512 .f32 := broadcastInDim S12500x512 ![] bcast_S_S12500x512 main_cst_0
  let main_v6 : IVec S12500x512 1 := cmpf .olt main_v4 main_v5
  let main_c_1 : IVec S_ 1 := constantI S_ 1 1#1
  let main_v7 : IVec S_ 1 := (fun x v => Host.reduce IntOp.andi x v reducesTo_S12500x512_S_d0_1 h_S_) main_v6 main_c_1
  let main_v8 : IVec S_ 1 := andi main_v3 main_v7
  main_v8
-- ==== Kernel.lean ====
abbrev S4096x512 : Shape := ⟨2, ![4096, 512]⟩
abbrev S12500x512 : Shape := ⟨2, ![12500, 512]⟩
abbrev S4096x12500 : Shape := ⟨2, ![4096, 12500]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S12500x512, .f32⟩
  | .hbm, ⟨2, _⟩ => ⟨S4096x512, .bf16⟩
  | .hbm, ⟨3, _⟩ => ⟨S4096x12500, .f32⟩
  | .local _ .vmem, ⟨0, _⟩ => ⟨S4096x512, .bf16⟩
  | .local _ .vmem, ⟨1, _⟩ => ⟨S512x512, .f32⟩
  | .local _ .vmem, ⟨2, _⟩ => ⟨S512x512, .f32⟩
  | .local _ .vmem, ⟨3, _⟩ => ⟨S4096x512, .f32⟩
  | .local _ .vmem, ⟨4, _⟩ => ⟨S4096x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  dot_S4096x512_S512x512_S4096x512_1_1_0_0_n_n_wf : DotDims.WF S4096x512 S512x512 S4096x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x512.size a < S12500x512.size a
  hwx0_1 : ∀ i : grid0.Coords, EltTy.bits .f32 = 32 ∨ (Rect.unit (s := S12500x512) (fun a => cc0_transform_1 i a * S512x512.size a) (fun a => (Pipeline.Clip.of (cc0_transform_1 i a) (S512x512.size a) (S12500x512.size a)).extent (S512x512.size a)) fun a => Pipeline.Clip.inb (Pipeline.Clip.ok_of (hstart0_1 i a))).WholeWords (EltTy.packing .f32)
  hwxs0_1 : ∀ i : grid0.Coords, EltTy.bits .f32 = 32 ∨ (Rect.unit (s := S512x512) (fun _ => 0) (fun a => (Pipeline.Clip.of (cc0_transform_1 i a) (S512x512.size a) (S12500x512.size a)).extent (S512x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x512.size a < S4096x12500.size a
  hwx0_2 : ∀ i : grid0.Coords, EltTy.bits .f32 = 32 ∨ (Rect.unit (s := S4096x12500) (fun a => cc0_transform_2 i a * S4096x512.size a) (fun a => (Pipeline.Clip.of (cc0_transform_2 i a) (S4096x512.size a) (S4096x12500.size a)).extent (S4096x512.size a)) fun a => Pipeline.Clip.inb (Pipeline.Clip.ok_of (hstart0_2 i a))).WholeWords (EltTy.packing .f32)
  hwxs0_2 : ∀ i : grid0.Coords, EltTy.bits .f32 = 32 ∨ (Rect.unit (s := S4096x512) (fun _ => 0) (fun a => (Pipeline.Clip.of (cc0_transform_2 i a) (S4096x512.size a) (S4096x12500.size a)).extent (S4096x512.size a)) fun a => (Nat.zero_add _).trans_le (Pipeline.Clip.extent_le (Pipeline.Clip.ok_of (hstart0_2 i a)))).WholeWords (EltTy.packing .f32)

variable [Facts₀]

def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf

abbrev win0_0 : Pipeline.Window sig grid0 :=
  Pipeline.Window.ofSpec (Memref.whole main_v0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S4096x512.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S12500x512 : Shape := ⟨2, ![12500, 512]⟩
abbrev S512x12500 : Shape := ⟨2, ![512, 12500]⟩
abbrev S4096x12500 : Shape := ⟨2, ![4096, 12500]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S12500x512, .f32⟩
  | .hbm, ⟨2, _⟩ => ⟨S512x12500, .f32⟩
  | .hbm, ⟨3, _⟩ => ⟨S4096x12500, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S12500x512_S512x12500_1_0 : S12500x512.Transposes [1, 0] S512x12500
  dot_S4096x512_S512x12500_S4096x12500_1_0_0_1_n_n_wf : DotDims.WF S4096x512 S512x12500 S4096x12500 [1] [0] [0] [1] [] []

variable [Facts₀]

def dot_S4096x512_S512x12500_S4096x12500_1_0_0_1_n_n : DotDims S4096x512 S512x12500 S4096x12500 where
  lhsContracting := [1]
  rhsContracting := [0]
  lhsNonContracting := [0]
  rhsNonContracting := [1]
  lhsBatch := []
  rhsBatch := []
  wf := dot_S4096x512_S512x12500_S4096x12500_1_0_0_1_n_n_wf

class Facts : Prop extends Facts₀ where

variable [Facts]
-- ==== Proof.KernelFrame.lean ====
/-
  The frame of the word-level program `Kernel`: a blocked matrix product, logits = x · wᵀ, with x (4096 × 512,
  bf16) resident in its one staging buffer and w (12500 × 512, f32) streamed in blocks of 512 rows over a grid of
  25 points; the result (4096 × 12500, f32) is written back in column blocks of 512. 12500 = 24 · 512 + 212, so at
  the last point w's block and the result's block overhang their arrays and their transfers are cut: the fetch of
  the cut block first overwrites the staging buffer with words nothing names, then lands the 212 rows inside the
  array.

  The claim proved here: every weakly fair execution terminates, faults nowhere, and leaves the two argument arrays
  as they were. Nothing is claimed of the result. At the word level the matrix product is opaque in its whole
  operand, so at the last point the unnamed tail of w's staging buffer reaches every word of the result's staging
  buffer: what the body leaves there cannot be named. The frame does not read it, so the result's window is
  FORGOTTEN (`Dat.toRForget`): it is handed to the body at arbitrary contents and taken back at arbitrary contents,
  and the run concludes the relational post `RDat.FramePost`, which still says that an input window's array and
  every buffer no window stages end as the region found them.
-/
import proofs.«114139_g15315853377883_cont_week2b_655_4_alg».proof.Proof.Gen.Kernel.Frame
import proofs.«114139_g15315853377883_cont_week2b_655_4_alg».proof.Proof.Gen.Kernel.Skeleton
import Idealize.ShloMosaic.Lib.Pipeline.Kit
import Idealize.ShloMosaic.Lib.Tactic

set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The kernel body on whole staging memrefs, x's at contents `x0`, w's at contents `x1` and the result's at
    anything: it loads all three and stores the product to the result's, so it runs to the continuation holding
    x's and w's as they were and the result's at some contents (the product of the two, which nothing here reads). -/
theorem sound_kernel (c : Dev nD) (E : Set ℕ) (i : grid0.Coords)
    (arg1 : Memref sig .tc .vmem S4096x512 .bf16) (harg1 : arg1.IsWhole)
    (arg2 : Memref sig .tc .vmem S512x512 .f32) (harg2 : arg2.IsWhole)
    (arg3 : Memref sig .tc .vmem S4096x512 .f32) (harg3 : arg3.IsWhole)
    (x0 : Vec F S4096x512 .bf16) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ (∃ d, owns (c : Thread nD τ) arg3 fullShare d)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _, _; isplitr
  swap; · iexact H2
  ipureintro; rfl

/-! ## The pipeline's proof data -/

/-- The windows the certificate forgets: the result's (window 2) and no other. -/
abbrev fgt : Fin cfg0.W → Bool :=
  fun | 0 => false | 1 => false | 2 => true | ⟨_ + 3, h⟩ => absurd h (Nat.not_lt.2 (Nat.le_add_left _ _))

/-- The proof data of the one pipeline on core `c`: the arrays as the region finds them (`Gen.V`); after the body
    at point `t` x's buffer at its block, w's buffer at its block on the rows inside the array (filled out past the
    array's end with a word nothing reads), the result's at contents nothing reads (the window is forgotten); the
    class invariant; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => Scalar.ofBits .f32 0#32) (Gen.iblk m c 1 t)
    | ⟨2, _⟩ => fun _ => Scalar.ofBits .f32 0#32
  Φ _ := Pipeline.ΦA spec0 c
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves in the two input windows. -/
theorem after0_0 (c : Dev nD) (t : Fin cfg0.N) : (dats m 0 c).after 0 t = Gen.iblk m c 0 t := by dsimp only [dats]
theorem after0_1 (c : Dev nD) (t : Fin cfg0.N) :
    (dats m 0 c).after 1 t = win0_1.fill (grid0.coords t) (fun _ => Scalar.ofBits .f32 0#32) (Gen.iblk m c 1 t) := by
  dsimp only [dats]

/-- x's staging buffer holds its block at every point, fetched there or not. -/
theorem before0_0 (c : Dev nD) (t : Fin cfg0.N) (d) : (dats m 0 c).before 0 t d = Gen.iblk m c 0 t :=
  Gen.before0_0_of m (dats m 0 c) (A_eq m c 0) (after0_0 m c) t d

/-- w's current staging buffer is fetched at every point: it holds w's block on the rows inside the array and `d`,
    what the overwrite before a cut fetch left, on the others. -/
theorem before0_1 (c : Dev nD) (t : Fin cfg0.N) (d) :
    (dats m 0 c).before 1 t d = win0_1.fill (grid0.coords t) d (Gen.iblk m c 1 t) := by
  unfold Dat.before; rw [if_pos (Gen.fetch0_1 t)]
  unfold Dat.fetched Dat.blockOf Gen.iblk; rw [A_eq]

/-! ## The body obligation, at a generic point -/

/-- The library's body obligation with the result's window forgotten, at every point: x's buffer arrives holding
    its block (`before0_0`) and w's its block filled out with some `d` past the array's end (`before0_1`), the
    result's holding anything; `sound_kernel` runs the body on them and gives the first two back as they were and the
    result's at some contents. x's window is exact: its buffer is handed back at its block. w's window is loose: its
    buffer is handed back stated on the rows inside the array only, with the same `d` past them (`Window.cut_fill`).
    The invariant and the core's `owes` pass through unread. -/
theorem body_obligation (c : Dev nD) :
    BodyObligationLoose (dats (F := F) m 0 c) (defs₀ (F := F)) Variants.none () Set.univ fgt := fun t => by
  rw [Gen.bigSep_W0, Gen.bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before0_0 m c t d0, before0_1 m c t d1]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Gen.iblk m c 0 t) (win0_1.fill (grid0.coords t) d1 (Gen.iblk m c 1 t)) _)
  isplitl [H0]; · iexact H0
  isplitl [H1]; · iexact H1
  isplitl [H2]; · iexists X2; iexact H2
  iintro ⟨H0, H1, ⟨%Y2, H2⟩⟩
  isplitl [HΦ]; · iexact HΦ
  isplitl [Ho]; · iexact Ho
  isplitl [H0]
  · rw [after0_0]; iexact H0
  isplitl [H1]
  · iexists d1
    rw [after0_1, Window.cut_fill]
    iexact H1
  · iexists Y2; iexact H2

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at SOME contents the proof
    data read with the result's window forgotten allows (for an input window: its entry contents) and every other
    unscoped buffer as the region found it (`RDat.FramePost`). -/
theorem run_main : θ_run defs (onTc (τ := τ) (main (F := F))) (s₀ m ρ)
    (Pipeline.RDat.FramePost cfg0 (fun c => (dats m 0 c).toRForget fgt) (Gen.V m)) :=
  Pipeline.RDat.θ_run_frame cfgs (0 : Fin 1) Gen.launch0 defs₀ Variants.none (fun c => (dats m 0 c).toRForget fgt) m ρ main
    (hbody := fun c => (body_obligation m c).toRForget) (hshare := fun c => (dats m 0 c).share_full fun _ => rfl)
    (howed := fun _ _ => rfl) (V := Gen.V m) (hmain := Gen.hmain m Variants.none) (hA := A_eq m) (hΦ := fun _ _ => rfl)

/-- THE FRAME: every weakly fair execution of the program terminates, faults nowhere, and leaves both argument
    arrays as launched. `main_arg0` (x before its conversion) is staged by no window: the run's post says it ends as
    the region found it, which is as launched (no host operation before the region writes it). `main_arg1` (w) is
    input window 1's array, a window not forgotten: an input window's array ends at its entry contents
    (`RDat.FramePost.arr_in`), the proof data's `A`, which again is as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (Gen.V_main_arg0 m c),
      (Pipeline.RDat.FramePost.arr_in h c 1 rfl).trans ((A_eq m c 1).trans (Gen.V_main_arg1 m c))⟩) (run_main m ρ)

end Cert.Kernel.Hand

end
-- ==== Proof.IdealBody.lean ====
/-
  The idealized kernel's body on its three staging buffers: it reads the whole block of weight rows and the
  whole feature matrix, multiplies them into a zero accumulator, and overwrites the whole output block with the
  product. The two inputs' buffers keep what they held; the output's buffer, whatever it held, ends at the
  product of the two.
-/
import proofs.«114139_g15315853377883_cont_week2b_655_4_alg».proof.Proof.Gen.KernelIdeal.Frame
import proofs.«114139_g15315853377883_cont_week2b_655_4_alg».proof.Proof.Gen.KernelIdeal.Skeleton
import Idealize.ShloMosaic.Lib.Pipeline.FrameBody
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole output block as one rectangle. -/
abbrev rOut : Rect S4096x512 := Rect.unit (s := S4096x512) ![0, 0] S4096x512.size inb_S4096x512_S4096x512_0_0

/-- One store of the whole block covers it. -/
theorem cover_out (p0 : Vec F S4096x512 .f32) (y : S4096x512.Idx) :
    ∃ pc ∈ ([⟨rOut, p0⟩] : List (View.Piece (Elt F) S4096x512 .f32)), y ∈ pc.1.set :=
  View.cover_of_tiled [⟨rOut, p0⟩] S4096x512.size (by rfl) y

set_option maxHeartbeats 1000000 in
/-- The body's triple: from the features' buffer at `x0`, the weight block's at `x1` and the output's at anything, to
    the first two unchanged and the output's at the product `k0_pay1 x1 x0`. -/
theorem sound_kernel (c : Dev nD) (E : Set ℕ) (i : grid0.Coords)
    (arg1 : Memref sig .tc .vmem S4096x512 .bf16) (harg1 : arg1.IsWhole)
    (arg2 : Memref sig .tc .vmem S512x512 .f32) (harg2 : arg2.IsWhole)
    (arg3 : Memref sig .tc .vmem S4096x512 .f32) (harg3 : arg3.IsWhole)
    (x0 : Vec F S4096x512 .bf16) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x1 x0)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (cover_out _), View.canon_unit_zero hz]
  simp only [View.readAt_eq_ld, View.ld_unit_zero (S := S512x512) hz, View.ld_unit_zero (S := S4096x512) hz]

end Cert.KernelIdeal.Hand

end
-- ==== Proof.Spec.lean ====
/-
  The classifier's logits as one function of the two argument arrays.

  With features `x` of 4096 rows and class weights `w` of 12500 rows, both of width 512, the logit of
  sample `i` for class `j` is the inner product of row `i` of `x` with row `j` of `w`:
  `logits x w (i, j) = Σ_k x (i, k) · w (j, k)`, the sum over the 512 feature coordinates taken in the
  extended reals. Addition there is commutative and associative, so the value does not depend on the order
  or grouping in which a program accumulates the 512 products; no finiteness of the entries is needed.

  `blockLogits` is the same sum over a block of 512 weight rows: column `j` of its result reads only row
  `j` of the block, which is what lets a block that overhangs the weight array still give the right columns
  inside the array, whatever its overhanging rows hold.
-/
import Idealize.ShloMosaic.PureOps.Ideal
import Idealize.ShloMosaic.Lib.ValueIdx

noncomputable section

namespace Cert.Gemm

open Idealize.ShloMosaic Idealize.ShloMosaic.ValueIdx

/-- The features' shape, the weights', the logits', and a block of 512 weight rows. -/
abbrev SX : Shape := ⟨2, ![4096, 512]⟩
abbrev SW : Shape := ⟨2, ![12500, 512]⟩
abbrev SO : Shape := ⟨2, ![4096, 12500]⟩
abbrev SB : Shape := ⟨2, ![512, 512]⟩

/-- Every logit: row `i 0` of the features against row `i 1` of the weights. -/
def logits (x : SX.Idx → EReal) (w : SW.Idx → EReal) : SO.Idx → EReal :=
  fun i => ∑ k : Fin 512, x (ix2 (n0 := 4096) (n1 := 512) (i 0) k) * w (ix2 (n0 := 12500) (n1 := 512) (i 1) k)

/-- The logits of one block of 512 classes: row `i 0` of the features against row `i 1` of the block. -/
def blockLogits (x : SX.Idx → EReal) (wb : SB.Idx → EReal) : SX.Idx → EReal :=
  fun i => ∑ k : Fin 512, x (ix2 (n0 := 4096) (n1 := 512) (i 0) k) * wb (ix2 (n0 := 512) (n1 := 512) (i 1) k)

/-- Column `j` of a block's logits reads only row `j` of the block: two blocks that agree on a row give the
    same column. -/
theorem blockLogits_congr_row (x : SX.Idx → EReal) (wb wb' : SB.Idx → EReal) (i : SX.Idx)
    (h : ∀ k : Fin 512, wb (ix2 (n0 := 512) (n1 := 512) (i 1) k) = wb' (ix2 (n0 := 512) (n1 := 512) (i 1) k)) :
    blockLogits x wb i = blockLogits x wb' i := by
  unfold blockLogits
  exact Finset.sum_congr rfl fun k _ => by rw [h k]

end Cert.Gemm

end
-- ==== Proof.IdealPay.lean ====
/-
  The idealized kernel's product read at an index. The body multiplies the feature matrix (its second axis
  contracted) with a block of 512 weight rows (its second axis contracted too) into a zero accumulator; the
  two changes of float format around it are the identity on the extended reals. So entry `(r, j)` of the
  product is `Σ_k x (r, k) · wb (j, k)`: the block's logits.
-/
import proofs.«114139_g15315853377883_cont_week2b_655_4_alg».proof.Proof.Gen.KernelIdeal.Skeleton
import proofs.«114139_g15315853377883_cont_week2b_655_4_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The left operand's row is the output's row; -/
theorem lhs_dot_0 (i : S4096x512.Idx) (q : dot_S4096x512_S512x512_S4096x512_1_1_0_0_n_n.contr.Idx) :
    (dot_S4096x512_S512x512_S4096x512_1_1_0_0_n_n.lhsIdx i q 0).val = (i 0).val := by
  unfold DotDims.lhsIdx
  rw [dif_neg (show ¬(0 : Fin S4096x512.rank) ∈ dot_S4096x512_S512x512_S4096x512_1_1_0_0_n_n.lhsBatch by decide), dif_pos (show (0 : Fin S4096x512.rank) ∈ dot_S4096x512_S512x512_S4096x512_1_1_0_0_n_n.lhsNonContracting by decide)]
  rfl
/-- its column is the contraction index. -/
theorem lhs_dot_1 (i : S4096x512.Idx) (q : dot_S4096x512_S512x512_S4096x512_1_1_0_0_n_n.contr.Idx) :
    (dot_S4096x512_S512x512_S4096x512_1_1_0_0_n_n.lhsIdx i q 1).val = (q ⟨0, by decide⟩).val :=
  dot_S4096x512_S512x512_S4096x512_1_1_0_0_n_n.lhsIdx_val_of_single rfl i q
/-- The right operand's row is the output's column; -/
theorem rhs_dot_0 (i : S4096x512.Idx) (q : dot_S4096x512_S512x512_S4096x512_1_1_0_0_n_n.contr.Idx) :
    (dot_S4096x512_S512x512_S4096x512_1_1_0_0_n_n.rhsIdx i q 0).val = (i 1).val := by
  unfold DotDims.rhsIdx
  rw [dif_neg (show ¬(0 : Fin S512x512.rank) ∈ dot_S4096x512_S512x512_S4096x512_1_1_0_0_n_n.rhsBatch by decide), dif_pos (show (0 : Fin S512x512.rank) ∈ dot_S4096x512_S512x512_S4096x512_1_1_0_0_n_n.rhsNonContracting by decide)]
  rfl
/-- its column is the contraction index. -/
theorem rhs_dot_1 (i : S4096x512.Idx) (q : dot_S4096x512_S512x512_S4096x512_1_1_0_0_n_n.contr.Idx) :
    (dot_S4096x512_S512x512_S4096x512_1_1_0_0_n_n.rhsIdx i q 1).val = (q ⟨0, by decide⟩).val :=
  dot_S4096x512_S512x512_S4096x512_1_1_0_0_n_n.rhsIdx_val_of_single rfl i q

/-- The body's product of a weight block `wb` and the features `xb`, at an index, is the block's logits. -/
theorem pay_apply (wb : Vec Ideal S512x512 .f32) (xb : Vec Ideal S4096x512 .bf16) (i : S4096x512.Idx) :
    k0_pay1 (F := Ideal) wb xb i = Cert.Gemm.blockLogits xb wb i := by
  unfold k0_pay1 Cert.Gemm.blockLogits
  rw [shapeCast_self]
  simp only [matmul]
  rw [Ideal.matmul_constant_zero_apply, ← Equiv.sum_comp (contrEquiv1 dot_S4096x512_S512x512_S4096x512_1_1_0_0_n_n 512 rfl rfl).symm]
  refine Finset.sum_congr rfl fun k _ => ?_
  have hk := contrEquiv1_symm_val dot_S4096x512_S512x512_S4096x512_1_1_0_0_n_n 512 rfl rfl k
  have el : dot_S4096x512_S512x512_S4096x512_1_1_0_0_n_n.lhsIdx i ((contrEquiv1 dot_S4096x512_S512x512_S4096x512_1_1_0_0_n_n 512 rfl rfl).symm k) = ix2 (n0 := 4096) (n1 := 512) (i 0) k := funext fun a => Fin.ext (by
    match a with
    | ⟨0, _⟩ => exact lhs_dot_0 _ _
    | ⟨1, _⟩ => exact (lhs_dot_1 _ _).trans hk)
  have er : dot_S4096x512_S512x512_S4096x512_1_1_0_0_n_n.rhsIdx i ((contrEquiv1 dot_S4096x512_S512x512_S4096x512_1_1_0_0_n_n 512 rfl rfl).symm k) = ix2 (n0 := 512) (n1 := 512) (i 1) k := funext fun a => Fin.ext (by
    match a with
    | ⟨0, _⟩ => exact rhs_dot_0 _ _
    | ⟨1, _⟩ => exact (rhs_dot_1 _ _).trans hk)
  rw [el, er]
  rfl

/-- The product as a whole array. -/
theorem pay_eq (wb : Vec Ideal S512x512 .f32) (xb : Vec Ideal S4096x512 .bf16) :
    k0_pay1 (F := Ideal) wb xb = Cert.Gemm.blockLogits xb wb :=
  funext (pay_apply wb xb)

end Cert.KernelIdeal.Hand

end
-- ==== Proof.IdealData.lean ====
/-
  The idealized kernel's pipeline, point by point. At grid point `t` the features' buffer holds the whole
  feature matrix, the weights' buffer holds rows `512 t …` of the weight array — all 512 of them for `t < 24`,
  and at the last point the 212 rows that are inside the array, above rows nothing names — and the body
  leaves the block's logits in the output's buffer. Column `j` of those logits reads only row `j` of the weight
  block, and the output's block is cut at the same 212 columns, so the columns that are written back do not
  depend on the rows nothing names.
-/
import proofs.«114139_g15315853377883_cont_week2b_655_4_alg».proof.Proof.IdealBody
import proofs.«114139_g15315853377883_cont_week2b_655_4_alg».proof.Proof.IdealPay
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks -/

/-- The features' block at any point: the whole (converted) feature matrix. -/
abbrev xblk (c : Dev nD) (t : Fin cfg0.N) : Vec Ideal S4096x512 .bf16 := iblk m c 0 t

/-- The weights' buffer after the fetch at point `t` into a buffer that held `d`: the block's rows inside the
    array, `d` on the rows past the array's end. -/
abbrev wfill (c : Dev nD) (t : Fin cfg0.N) (d : Vec Ideal S512x512 .f32) : Vec Ideal S512x512 .f32 :=
  win0_1.fill (grid0.coords t) d (iblk m c 1 t)

/-- The same with zeros past the array's end: a fixed choice, to name the block by. -/
def wfull (c : Dev nD) (t : Fin cfg0.N) : Vec Ideal S512x512 .f32 := wfill m c t (fun _ => (0 : EReal))

/-- The two cut windows are cut alike: the weights' rows inside the array at a point are as many as the output's
    columns inside the array there, and the weights' block keeps all 512 of its columns. -/
theorem cuts_agree : ∀ t : Fin cfg0.N, win0_1.xsize (grid0.coords t) 0 = win0_2.xsize (grid0.coords t) 1
    ∧ win0_1.xsize (grid0.coords t) 1 = 512 :=
  (by decide +kernel : ∀ t : Fin grid0.N, win0_1.xsize (grid0.coords t) 0 = win0_2.xsize (grid0.coords t) 1
    ∧ win0_1.xsize (grid0.coords t) 1 = 512)

/-- On the part a fetch moves, what the buffer held before does not matter. -/
theorem wfill_moved (c : Dev nD) (t : Fin cfg0.N) (d d' : Vec Ideal S512x512 .f32) (j : S512x512.Idx)
    (h : win0_1.moved (grid0.coords t) j = true) : wfill m c t d j = wfill m c t d' j := by
  unfold wfill Window.fill; rw [dif_pos h, dif_pos h]

/-- The logits' columns that are written back at point `t` do not depend on what the weights' buffer held past
    the array's end. -/
theorem cut_logits_indep (c : Dev nD) (t : Fin cfg0.N) (d d' : Vec Ideal S512x512 .f32) :
    win0_2.cut (grid0.coords t) (k0_pay1 (F := Ideal) (wfill m c t d) (xblk m c t))
      = win0_2.cut (grid0.coords t) (k0_pay1 (F := Ideal) (wfill m c t d') (xblk m c t)) := by
  funext j
  show k0_pay1 (F := Ideal) (wfill m c t d) (xblk m c t) (win0_2.xinj (grid0.coords t) j)
    = k0_pay1 (F := Ideal) (wfill m c t d') (xblk m c t) (win0_2.xinj (grid0.coords t) j)
  rw [pay_apply, pay_apply]
  refine Cert.Gemm.blockLogits_congr_row _ _ _ _ fun k => ?_
  refine wfill_moved m c t d d' _ ((win0_1.moved_iff (grid0.coords t) _).mpr fun a => ?_)
  have hj : (j 1).val < win0_2.xsize (grid0.coords t) 1 := (j 1).isLt
  match a with
  | ⟨0, _⟩ =>
    show (j 1).val < win0_1.xsize (grid0.coords t) 0
    rw [(cuts_agree t).1]; exact hj
  | ⟨1, _⟩ =>
    show k.val < win0_1.xsize (grid0.coords t) 1
    rw [(cuts_agree t).2]; exact k.isLt

/-- So the output's buffer after the body, whatever the weights' buffer held past the array's end, is its own
    written-back columns over itself: it is one of the contents the obligation of a cut window allows. -/
theorem fill_logits (c : Dev nD) (t : Fin cfg0.N) (d : Vec Ideal S512x512 .f32) :
    win0_2.fill (grid0.coords t) (k0_pay1 (F := Ideal) (wfill m c t d) (xblk m c t))
        (win0_2.cut (grid0.coords t) (k0_pay1 (F := Ideal) (wfull m c t) (xblk m c t)))
      = k0_pay1 (F := Ideal) (wfill m c t d) (xblk m c t) := by
  unfold wfull
  exact Window.fill_congr_cut win0_2 (grid0.coords t) (cut_logits_indep m c t d (fun _ => (0 : EReal)))

/-! ## The proof data -/

/-- The pipeline's data on core `c`: the arrays as the region finds them; after the body at point `t` the features'
    buffer at the feature matrix, the weights' at the block (zeros past the array's end) and the output's at that
    block's logits; the invariant the scoped rest and the generator register, untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => wfull m c t
    | ⟨2, _⟩ => k0_pay1 (F := Ideal) (wfull m c t) (xblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wfull m c t := by dsimp only [dats]
theorem after_2 (c : Dev nD) (t : Fin cfg0.N) :
    (dats m 0 c).after 2 t = k0_pay1 (F := Ideal) (wfull m c t) (xblk m c t) := by dsimp only [dats]

/-- The features' buffer holds the feature matrix at every point, fetched there or not. -/
theorem before_0 (c : Dev nD) (t : Fin cfg0.N) (d) : (dats m 0 c).before 0 t d = iblk m c 0 t :=
  before0_0_of m (dats m 0 c) (A_eq m c 0) (after_0 m c) t d

/-- The weights' buffer is fetched at every point: it holds the block on the rows inside the array. -/
theorem before_1 (c : Dev nD) (t : Fin cfg0.N) (d) : (dats m 0 c).before 1 t d = wfill m c t d := by
  unfold Dat.before; rw [if_pos (fetch0_1 t)]; rfl

/-! ## The body obligation -/

theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (xblk m c t) (wfill m c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    rw [after_1]
    have e : win0_1.fill (grid0.coords t) d1 (win0_1.cut (grid0.coords t) (wfull m c t)) = wfill m c t d1 := by
      unfold wfull wfill; rw [Window.cut_fill]
    change _ ⊢ owns (c : Thread nD τ) (stage0_1 (cfg0.slots t 1)) fullShare
      (win0_1.fill (grid0.coords t) d1 (win0_1.cut (grid0.coords t) (wfull m c t)))
    rw [e]; try iexact H1
  · iexists k0_pay1 (F := Ideal) (wfill m c t d1) (xblk m c t)
    rw [after_2]
    have e := fill_logits m c t d1
    rw [e]
    try iexact H2

/-! ## The run -/

set_option backward.isDefEq.respectTransparency.types false in
/-- Every weakly fair execution of the program terminates, and in every final state each array of the pipeline
    holds what the write-backs of the data above leave in it, every other unscoped buffer what the region found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.IdealValue.lean ====
/-
  The idealized kernel's output array after the run IS the logits of its two arguments.

  The grid has 25 points. Point `t` writes back the columns of its output block that lie inside the array: block
  index (0, t), all 4096 rows and min 512 (12500 − 512 t) columns — 512 for t < 24, and 212 at t = 24. What it writes
  at row `r`, column `j'` of the block is Σ_k x (r, k) · wb (j', k), with `wb` the weights' staging buffer: rows
  512 t … of the weight array where those are inside the array. A written column `j'` is below the cut, so row `j'`
  of `wb` IS the array's row 512 t + j'; and the features' buffer holds the features as the region finds them: the
  launch features converted to the narrower float format, a conversion that is the identity on the extended reals.
  So point `t` writes back exactly its block of the logits; every column j < 12500 lies in the block of point
  j / 512; hence the array ends holding the logits, every entry of it.
-/
import proofs.«114139_g15315853377883_cont_week2b_655_4_alg».proof.Proof.IdealData
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Rounds
open Idealize.ShloMosaic.Pipeline (Dat Cfg Window)

variable (m : (ℓ : Loc nD τ sig) → Buf (Elt Ideal) ℓ)

/-! ## What the region finds in the features' array -/

/-- The one host operation before the region converts the launch features to the narrower float format and writes
    them to the array the features' window stages; on the extended reals that conversion is the identity, so the
    region finds the launch features there. -/
theorem V_features (c : Dev nD) :
    (V m c main_v0 : S4096x512.Idx → EReal) = m ((c : Thread nD τ).loc main_arg0) := by
  dsimp only [V, hostOps0]; after_results; rfl

/-! ## The printed index maps, over the grid -/

/-- The features' window sits at block (0, 0) at every point; the weights' at block (t, 0); the output's at block
    (0, t), where it keeps all 4096 rows and the columns inside the array: min 512 (12500 − 512 t) of them. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 4096
    ∧ win0_2.xsize (grid0.coords t) (1 : Fin 2) = min 512 (12500 - 512 * t.val) :=
  (by decide +kernel : ∀ t : Fin grid0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 4096
    ∧ win0_2.xsize (grid0.coords t) (1 : Fin 2) = min 512 (12500 - 512 * t.val))

/-! ## The two staged blocks, entry by entry -/

/-- The features' buffer at any point, at row `r` and coordinate `k`: the launch features there (the window's one
    block is the whole array, found as launched by `V_features`). -/
theorem xblk_apply (c : Dev nD) (t : Fin cfg0.N) (r : Fin 4096) (k : Fin 512) :
    xblk m c t (ix2 r k) = m ((c : Thread nD τ).loc main_arg0) (ix2 r k) := by
  obtain ⟨e0, e1, -⟩ := idx_facts t
  show (V m c main_v0 : S4096x512.Idx → EReal) (((cfg0.win 0).blk t).view.emb (ix2 r k)) = _
  rw [V_features]
  refine congrArg (m ((c : Thread nD τ).loc main_arg0)) (funext fun a => Fin.ext ?_)
  match a with
  | ⟨0, _⟩ => show win0_0.index t (0 : Fin 2) * 4096 + 1 * r.val = r.val; omega
  | ⟨1, _⟩ => show win0_0.index t (1 : Fin 2) * 512 + 1 * k.val = k.val; omega

/-- The weights' buffer at point `t`, at a row `j` below the cut and coordinate `k`: the launch weights' row
    512 t + j there. The row is on the part the fetch moves, so it is the array's and not what the buffer held. -/
theorem wfull_apply (c : Dev nD) (t : Fin cfg0.N) (j k : Fin 512) (q : Fin 12500)
    (hq : q.val = 512 * t.val + j.val) (hj : j.val < win0_2.xsize (grid0.coords t) (1 : Fin 2)) :
    wfull m c t (ix2 j k) = m ((c : Thread nD τ).loc main_arg1) (ix2 q k) := by
  obtain ⟨-, -, e2, e3, -⟩ := idx_facts t
  have hmoved : win0_1.moved (grid0.coords t) (ix2 j k) = true := (win0_1.moved_iff (grid0.coords t) _).mpr fun a => by
    match a with
    | ⟨0, _⟩ => show j.val < win0_1.xsize (grid0.coords t) 0; rw [(cuts_agree t).1]; exact hj
    | ⟨1, _⟩ => show k.val < win0_1.xsize (grid0.coords t) 1; rw [(cuts_agree t).2]; exact k.isLt
  unfold wfull wfill Window.fill
  rw [dif_pos hmoved]
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 512 + 1 * j.val = q.val; omega
  | ⟨1, _⟩ => show win0_1.index t (1 : Fin 2) * 512 + 1 * k.val = k.val; omega

/-! ## What a point writes back -/

/-- The logits of the launch arguments on core `c`: what the output array is shown to end holding. -/
abbrev launchLogits (c : Dev nD) : S4096x12500.Idx → EReal :=
  Cert.Gemm.logits (m ((c : Thread nD τ).loc main_arg0)) (m ((c : Thread nD τ).loc main_arg1))

/-- WHAT POINT `t` WRITES BACK is block `t` of the logits. Entry (r, j) of the written part, j below the cut, is the
    block's logit Σ_k xb (r, k) · wb (j, k); there xb (r, k) is the launch feature (r, k) and wb (j, k) is the launch
    weight (512 t + j, k), and (r, 512 t + j) is where the output's block puts the entry in the array. -/
theorem flushed_eq (c : Dev nD) (t : Fin cfg0.N) :
    (dats m 0 c).flushed 2 t = ((cfg0.win 2).blk t).view.read (Elt Ideal) (launchLogits m c) := by
  obtain ⟨-, -, -, -, e4, e5, -⟩ := idx_facts t
  show (cfg0.win 2).cut (grid0.coords t) ((dats m 0 c).after 2 t) = _
  rw [after_2]
  funext y
  show k0_pay1 (F := Ideal) (wfull m c t) (xblk m c t) (win0_2.xinj (grid0.coords t) y)
    = launchLogits m c (((cfg0.win 2).blk t).view.emb y)
  rw [pay_apply]
  unfold Cert.Gemm.blockLogits launchLogits Cert.Gemm.logits
  refine Finset.sum_congr rfl fun k _ => ?_
  have hr : ((((cfg0.win 2).blk t).view.emb y) 0 : Fin 4096) = (win0_2.xinj (grid0.coords t) y) 0 := Fin.ext (by
    show win0_2.index t (0 : Fin 2) * 4096 + 1 * (y 0).val = (y 0).val; omega)
  have hq : ((((cfg0.win 2).blk t).view.emb y) 1 : Fin 12500).val = 512 * t.val + ((win0_2.xinj (grid0.coords t) y) 1 : Fin 512).val := by
    show win0_2.index t (1 : Fin 2) * 512 + 1 * (y 1).val = 512 * t.val + (y 1).val; omega
  refine congrArg₂ (· * ·) ?_ ?_
  · exact (xblk_apply m c t _ k).trans
      (congrArg (fun r : Fin 4096 => m ((c : Thread nD τ).loc main_arg0) (ix2 r k)) hr.symm)
  · exact wfull_apply m c t _ k _ hq (y 1).isLt

/-! ## The blocks cover the array -/

/-- An index of the output array is in point `t`'s block iff on each axis it is at or past the block's start and
    before the end of the block's part inside the array. -/
theorem mem_out_blk (t : Fin cfg0.N) (i : S4096x12500.Idx) :
    i ∈ ((cfg0.win 2).blk t).view.set ↔ ∀ a : Fin 2, win0_2.index t a * S4096x512.size a ≤ (i a).val
      ∧ (i a).val < win0_2.index t a * S4096x512.size a + win0_2.xsize (grid0.coords t) a := by
  show i ∈ ((View.whole main_v1).slice (win0_2.rect t)).set ↔ _
  rw [View.set_slice_whole, Rect.mem_set_unit]
  exact Iff.rfl

/-- Every index of the output array is in the block of a point that writes back: column j is in the block of
    point j / 512 (j < 12500 gives j / 512 < 25, and j − 512 (j / 512) is below both 512 and 12500 − 512 (j / 512)). -/
theorem blocks_cover (i : S4096x12500.Idx) :
    ∃ t : Fin cfg0.N, (cfg0.win 2).flush t = true ∧ i ∈ ((cfg0.win 2).blk t).view.set := by
  have hi0 : (i 0).val < 4096 := (i 0).isLt
  have hi1 : (i 1).val < 12500 := (i 1).isLt
  obtain ⟨t, ht⟩ : ∃ t : Fin cfg0.N, t.val = (i 1).val / 512 := ⟨⟨(i 1).val / 512, by rw [show cfg0.N = 25 from N_0]; omega⟩, rfl⟩
  obtain ⟨-, -, -, -, e4, e5, e6, e7⟩ := idx_facts t
  refine ⟨t, flush0_2 t, (mem_out_blk t i).mpr fun a => ?_⟩
  match a with
  | ⟨0, _⟩ =>
    show win0_2.index t (0 : Fin 2) * 4096 ≤ (i 0).val ∧ (i 0).val < win0_2.index t (0 : Fin 2) * 4096 + win0_2.xsize (grid0.coords t) (0 : Fin 2)
    omega
  | ⟨1, _⟩ =>
    show win0_2.index t (1 : Fin 2) * 512 ≤ (i 1).val ∧ (i 1).val < win0_2.index t (1 : Fin 2) * 512 + win0_2.xsize (grid0.coords t) (1 : Fin 2)
    omega

/-! ## The final array -/

/-- THE OUTPUT ARRAY AFTER THE RUN is the logits of the two launch arguments, every entry: each point writes back
    its block of them (`flushed_eq`) and the blocks cover the array (`blocks_cover`). -/
theorem final_logits (c : Dev nD) :
    (dats m 0 c).arrAt 2 cfg0.N
      = Cert.Gemm.logits (m ((c : Thread nD τ).loc main_arg0)) (m ((c : Thread nD τ).loc main_arg1)) :=
  (dats m 0 c).arrAt_eq_of_cover 2 (launchLogits m c) (fun t _ => flushed_eq m c t) blocks_cover

end Cert.KernelIdeal.Hand

end
-- ==== Proof.RefValue.lean ====
/-
  The reference program's result, read index by index: it transposes the weights and contracts the
  features' second axis with the transposed weights' first, so entry `(i, j)` is the sum over `k` of
  `x (i, k) · wᵀ (k, j) = x (i, k) · w (j, k)` — the logits.
-/
import proofs.«114139_g15315853377883_cont_week2b_655_4_alg».proof.Proof.Gen.ReferenceIdeal.Read
import proofs.«114139_g15315853377883_cont_week2b_655_4_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The contraction's left operand index is `(i 0, k)`; the right one, read back through the transpose, is
    `(i 1, k)`: the reference's result is the logits. -/
theorem ref_eq (x0 : (⟨S4096x512, .f32⟩ : BufTy).Contents (Elt Ideal)) (x1 : (⟨S12500x512, .f32⟩ : BufTy).Contents (Elt Ideal)) :
    val_main_v1 (F := Ideal) x0 x1 = Cert.Gemm.logits x0 x1 := by
  funext i
  rw [val_main_v1_apply]
  unfold Cert.Gemm.logits
  refine Finset.sum_congr rfl fun k _ => ?_
  rw [val_main_v0_apply]
  have e0 : lidx_main_v1 i k = ix2 (n0 := 4096) (n1 := 512) (i 0) k :=
    funext fun a => by match a with | ⟨0, _⟩ => rfl | ⟨1, _⟩ => rfl
  have e1 : idx_main_v0 (ridx_main_v1 i k) = ix2 (n0 := 12500) (n1 := 512) (i 1) k :=
    funext fun a => by match a with | ⟨0, _⟩ => rfl | ⟨1, _⟩ => rfl
  rw [e0, e1]

end Cert.ReferenceIdeal.RefValue

end
-- ==== Proof.lean ====
/-
  A dense classifier head: logits = features · weightsᵀ, with 4096 samples, 12500 classes and 512 feature
  coordinates. The kernel keeps the features (converted to bf16 on the host) resident and streams the weights in
  blocks of 512 classes over a grid of 25 points, writing one block of 512 output columns per point; the
  reference transposes the weights and contracts once.

  Over the extended reals a change of float format is the identity, and the matrix unit's product into a zero
  accumulator and the host's contraction are both the plain sum `Σ_k x (i, k) · w (j, k)` over the 512
  coordinates (Proof/Spec.lean). So each grid point leaves in its output block the logits of its block of classes
  (Proof/IdealPay.lean), the 25 blocks tile the 12500 columns, and the array ends at the logits
  (Proof/IdealValue.lean); the reference's contraction read back through its transpose is the same sum
  (Proof/RefValue.lean). No finiteness of the inputs is used: the two sides are the same sum of the same products.

  12500 = 24 · 512 + 212: at the last point the weights' block and the output's block overhang their arrays. The
  fetch of the cut block leaves the buffer's last 300 rows at words nothing names; column `j` of a block's logits
  reads only row `j` of the weight block, and the output's block is cut at the same 212 columns, so what is
  written back does not depend on those rows (Proof/IdealData.lean). At the word level the matrix product is
  opaque in its whole operand, so there the output is not named at all: the word-level frame forgets the
  output's window and keeps only that the program runs and leaves its arguments alone (Proof/KernelFrame.lean).
-/
import proofs.«114139_g15315853377883_cont_week2b_655_4_alg».proof.Defs
import proofs.«114139_g15315853377883_cont_week2b_655_4_alg».proof.Proof.Gen.Kernel
import proofs.«114139_g15315853377883_cont_week2b_655_4_alg».proof.Proof.Gen.KernelIdeal
import proofs.«114139_g15315853377883_cont_week2b_655_4_alg».proof.Proof.Gen.ReferenceIdeal
import proofs.«114139_g15315853377883_cont_week2b_655_4_alg».proof.Proof.Gen.Pre_finite_inputs
import proofs.«114139_g15315853377883_cont_week2b_655_4_alg».proof.Proof.Gen.ReferenceIdeal.Run
import proofs.«114139_g15315853377883_cont_week2b_655_4_alg».proof.Proof.Gen.ReferenceIdeal.Read
import proofs.«114139_g15315853377883_cont_week2b_655_4_alg».proof.Proof.KernelFrame
import proofs.«114139_g15315853377883_cont_week2b_655_4_alg».proof.Proof.IdealData
import proofs.«114139_g15315853377883_cont_week2b_655_4_alg».proof.Proof.IdealValue
import proofs.«114139_g15315853377883_cont_week2b_655_4_alg».proof.Proof.RefValue
import Idealize.ShloMosaic.Adequacy
import Idealize.ShloMosaic.Init

noncomputable section

namespace Cert.KernelIdeal.Hand

open Cert.KernelIdeal Cert.KernelIdeal.Gen
open Idealize.ShloMosaic Idealize.ShloMosaic.TcCoe Idealize.SL.Sem

/-- The idealized kernel's run, read: every weakly fair execution terminates with the result array at the logits of
    the two argument arrays, and the arguments as they were. The result is the output window's array after the 25
    write-backs; the features are staged by no window of their own (their converted copy is) and the weights are an
    input window's array: both end as the region found them, which is as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1)
        = Cert.Gemm.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final_logits m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Hand

namespace Cert.Proof

open Idealize.ShloMosaic Idealize.SL.Sem

/-- The word-level kernel runs and leaves its arguments as they were. -/
theorem frame_k : Cert.frame_Kernel := fun m ρ _ => Cert.Kernel.Hand.frame (F := Bits) m ρ

/-- So does the idealized kernel: its run with the result dropped. -/
theorem frame_ki : Cert.frame_KernelIdeal := fun m ρ _ =>
  (θ_run Cert.KernelIdeal.defs _ _).mono (fun _ h c => (h c).2) (Cert.KernelIdeal.Hand.run m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Over the extended reals both programs end with the logits of arguments that agree: the kernel block of
    classes by block of classes, the reference in one contraction against the transposed weights; entry `(i, j)` of
    either is `Σ_k x (i, k) · w (j, k)`. -/
theorem algebraic : Cert.algebraic_KernelIdeal_ReferenceIdeal := by
  intro m ρ m' ρ' _ hagree
  refine ⟨fun c => Cert.Gemm.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
